-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S5000x128 : Shape := ⟨2, ![5000, 128]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 77
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x64, .f32⟩
  | .hbm, ⟨68, _⟩ => ⟨S850000x1, .f32⟩
  | .hbm, ⟨69, _⟩ => ⟨S850000x64, .f32⟩
  | .hbm, ⟨70, _⟩ => ⟨S850000x64, .f32⟩
  | .hbm, ⟨71, _⟩ => ⟨S_, .f32⟩
  | .hbm, ⟨72, _⟩ => ⟨S50000x64, .f32⟩
  | .hbm, ⟨73, _⟩ => ⟨S850000x1, .i32⟩
  | .hbm, ⟨74, _⟩ => ⟨S50000x64, .f32⟩
  | .hbm, ⟨75, _⟩ => ⟨S1x64, .f32⟩
  | .hbm, ⟨76, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_7 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S50000, .f32⟩
  | .hbm, ⟨20, _⟩ => ⟨S_, .i32⟩
  | .hbm, ⟨21, _⟩ => ⟨S850000, .i32⟩
  | .hbm, ⟨22, _⟩ => ⟨S850000, .i1⟩
  | .hbm, ⟨23, _⟩ => ⟨S_, .i32⟩
  | .hbm, ⟨24, _⟩ => ⟨S850000, .i32⟩
  | .hbm, ⟨25, _⟩ => ⟨S850000, .i32⟩
  | .hbm, ⟨26, _⟩ => ⟨S850000, .i32⟩
  | .hbm, ⟨27, _⟩ => ⟨S850000x1, .i32⟩
  | .hbm, ⟨28, _⟩ => ⟨S850000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S50000x64, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000x64, .f32⟩
  | .hbm, ⟨49, _⟩ => ⟨S850000x1, .f32⟩
  | .hbm, ⟨50, _⟩ => ⟨S850000x64, .f32⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .f32⟩
  | .hbm, ⟨58, _⟩ => ⟨S50000x64, .f32⟩
  | .hbm, ⟨59, _⟩ => ⟨S_, .f32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S_, .i32⟩
  | .hbm, ⟨64, _⟩ => ⟨S850000, .i32⟩
  | .hbm, ⟨65, _⟩ => ⟨S850000, .i1⟩
  | .hbm, ⟨66, _⟩ => ⟨S_, .i32⟩
  | .hbm, ⟨67, _⟩ => ⟨S850000, .i32⟩
  | .hbm, ⟨68, _⟩ => ⟨S850000, .i32⟩
  | .hbm, ⟨69, _⟩ => ⟨S850000, .i32⟩
  | .hbm, ⟨70, _⟩ => ⟨S850000x1, .i32⟩
  | .hbm, ⟨71, _⟩ => ⟨S850000x64, .f32⟩
  | .hbm, ⟨72, _⟩ => ⟨S850000x1, .f32⟩
  | .hbm, ⟨73, _⟩ => ⟨S850000x64, .f32⟩
  | .hbm, ⟨74, _⟩ => ⟨S850000x64, .f32⟩
  | .hbm, ⟨75, _⟩ => ⟨S_, .f32⟩
  | .hbm, ⟨76, _⟩ => ⟨S50000x64, .f32⟩
  | .hbm, ⟨77, _⟩ => ⟨S850000x1, .i32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.Glue.lean ====
/-
  The part of the graph convolution that both programs run as the very same host operations: the edge
  list with self-loops, the symmetric normalisation, and the aggregation (gather the source rows, scale
  by the edge weight, scatter-add into the target rows). They are named here once, for any float
  values, so that the kernel's run and the reference's run can both be folded into them; nothing about
  gather or scatter-add is opened.
-/
import proofs.«134717_j68298569941218_1_alg».proof.Proof.Gen.ReferenceIdeal

noncomputable section

namespace Cert.ReferenceIdeal.Glue

open Cert.ReferenceIdeal Cert.ReferenceIdeal.Facts₀ Idealize.ShloMosaic

variable {F : FTy → Type} [FloatOps F]

/-- Message sources: row 0 of the edge list followed by the self-loops 0 … 49999. -/
def srcOf (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Message targets: row 1 of the edge list followed by the self-loops. -/
def dstOf (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A negative node index counts from the end: v < 0 reads as v + 50000. -/
def wrapIdx (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The inverse square root of each node's in-degree (self-loop included): ones scatter-added at the targets. -/
def invSqrtDeg (dst : (⟨S850000, .i32⟩ : BufTy).Contents (Elt F)) : (⟨S50000, .f32⟩ : BufTy).Contents (Elt F) :=
  Host.rsqrt (Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32)))

/-- The weight of each message: the product of the two endpoint factors. -/
def edgeNorm (src dst : (⟨S850000, .i32⟩ : BufTy).Contents (Elt F)) : (⟨S850000, .f32⟩ : BufTy).Contents (Elt F) :=
  mulf (Host.gather gather_S50000_S850000x1_S850000_n_0_n_n_0_1_1 (invSqrtDeg dst) (broadcastInDim S850000x1 ![0] bcast_S850000_S850000x1_0 (wrapIdx src))) (Host.gather gather_S50000_S850000x1_S850000_n_0_n_n_0_1_1 (invSqrtDeg dst) (broadcastInDim S850000x1 ![0] bcast_S850000_S850000x1_0 (wrapIdx dst)))

/-- One aggregation: gather the projected rows at the sources, scale each by its message weight, and
    scatter-add them at the targets into a zero array. -/
def aggregate (src dst : (⟨S850000, .i32⟩ : BufTy).Contents (Elt F)) (nrm : (⟨S850000, .f32⟩ : BufTy).Contents (Elt F))
    (h : (⟨S50000x64, .f32⟩ : BufTy).Contents (Elt F)) : (⟨S50000x64, .f32⟩ : BufTy).Contents (Elt F) :=
  Host.scatterAdd scatter_S50000x64_S850000x1_S850000x64_1_0_0_1 (broadcastInDim S50000x64 ![] bcast_S_S50000x64 (constant S_ .f32 0x00000000#32)) (broadcastInDim S850000x1 ![0] bcast_S850000_S850000x1_0 dst) (mulf (Host.gather gather_S50000x64_S850000x1_S850000x64_1_0_n_n_0_1_164 h (broadcastInDim S850000x1 ![0] bcast_S850000_S850000x1_0 (wrapIdx src))) (broadcastInDim S850000x64 ![0, 1] bcast_S850000x1_S850000x64_0_1 (broadcastInDim S850000x1 ![0] bcast_S850000_S850000x1_0 nrm)))

end Cert.ReferenceIdeal.Glue

end
-- ==== Proof.KernelChain.lean ====
/-
  The kernel's run, boundary by boundary, for any float values.

  @main is a stretch of host operations, the first projection region, a second stretch (the first
  aggregation and the first bias laid out as a row), the rectified-bias region, the second projection
  region, a third stretch (the second aggregation and the second bias as a row) and the bias region.
  Read through the contents at each boundary: the edge data (sources, targets, message weights) are
  computed once in the first stretch and no later item writes them; each aggregation is the shared
  gather / scale / scatter-add of the region result before it; each region's result array is what its
  ten write-backs leave. The arguments are written by nothing.
-/
import proofs.«134717_j68298569941218_1_alg».proof.Proof.Gen.KernelIdeal.Frame
import proofs.«134717_j68298569941218_1_alg».proof.Proof.Glue
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## After the first stretch: the edge data, and the arguments untouched -/

set_option maxHeartbeats 8000000 in
/-- The message sources are read off the edge list. -/
theorem W1_src (c : Dev nD) : W1 m ρ c (Proc.devRef .tc main_v3) = Cert.ReferenceIdeal.Glue.srcOf (m ((c : Thread nD τ).loc main_arg1)) := by
  show StableHlo.after hostOps0 (W0 m ρ c) (Proc.devRef .tc main_v3) = _
  after_results
  all_goals rfl

set_option maxHeartbeats 8000000 in
/-- The message targets are read off the edge list. -/
theorem W1_dst (c : Dev nD) : W1 m ρ c (Proc.devRef .tc main_v6) = Cert.ReferenceIdeal.Glue.dstOf (m ((c : Thread nD τ).loc main_arg1)) := by
  show StableHlo.after hostOps0 (W0 m ρ c) (Proc.devRef .tc main_v6) = _
  after_results
  all_goals rfl

set_option maxHeartbeats 16000000 in
/-- The message weights are the normalisation of those sources and targets. -/
theorem W1_norm (c : Dev nD) : W1 m ρ c (Proc.devRef .tc main_v26)
    = Cert.ReferenceIdeal.Glue.edgeNorm (Cert.ReferenceIdeal.Glue.srcOf (m ((c : Thread nD τ).loc main_arg1))) (Cert.ReferenceIdeal.Glue.dstOf (m ((c : Thread nD τ).loc main_arg1))) := by
  show StableHlo.after hostOps0 (W0 m ρ c) (Proc.devRef .tc main_v26) = _
  after_results
  all_goals rfl

set_option maxHeartbeats 8000000 in
theorem W1_arg0 (c : Dev nD) : W1 m ρ c (Proc.devRef .tc main_arg0) = m ((c : Thread nD τ).loc main_arg0) := by
  show StableHlo.after hostOps0 (W0 m ρ c) (Proc.devRef .tc main_arg0) = _
  after_results
  all_goals rfl

set_option maxHeartbeats 8000000 in
theorem W1_arg2 (c : Dev nD) : W1 m ρ c (Proc.devRef .tc main_arg2) = m ((c : Thread nD τ).loc main_arg2) := by
  show StableHlo.after hostOps0 (W0 m ρ c) (Proc.devRef .tc main_arg2) = _
  after_results
  all_goals rfl

set_option maxHeartbeats 8000000 in
theorem W1_arg3 (c : Dev nD) : W1 m ρ c (Proc.devRef .tc main_arg3) = m ((c : Thread nD τ).loc main_arg3) := by
  show StableHlo.after hostOps0 (W0 m ρ c) (Proc.devRef .tc main_arg3) = _
  after_results
  all_goals rfl

set_option maxHeartbeats 8000000 in
theorem W1_arg4 (c : Dev nD) : W1 m ρ c (Proc.devRef .tc main_arg4) = m ((c : Thread nD τ).loc main_arg4) := by
  show StableHlo.after hostOps0 (W0 m ρ c) (Proc.devRef .tc main_arg4) = _
  after_results
  all_goals rfl

set_option maxHeartbeats 8000000 in
theorem W1_arg5 (c : Dev nD) : W1 m ρ c (Proc.devRef .tc main_arg5) = m ((c : Thread nD τ).loc main_arg5) := by
  show StableHlo.after hostOps0 (W0 m ρ c) (Proc.devRef .tc main_arg5) = _
  after_results
  all_goals rfl

/-! ## Region 0 writes only its result array -/

/-- The first projection's result array is what region 0's write-backs leave. -/
theorem W2_proj (c : Dev nD) : W2 m ρ c (Proc.devRef .tc main_v27) = (dat0 (V1 m ρ) c).arrAt 2 cfg0.N := W2_arr m ρ c 2

theorem W2_keep_v3 (c : Dev nD) : W2 m ρ c (Proc.devRef .tc main_v3) = W1 m ρ c (Proc.devRef .tc main_v3) := W2_of_ne m ρ c main_v3 (by decide)
theorem W2_keep_v6 (c : Dev nD) : W2 m ρ c (Proc.devRef .tc main_v6) = W1 m ρ c (Proc.devRef .tc main_v6) := W2_of_ne m ρ c main_v6 (by decide)
theorem W2_keep_v26 (c : Dev nD) : W2 m ρ c (Proc.devRef .tc main_v26) = W1 m ρ c (Proc.devRef .tc main_v26) := W2_of_ne m ρ c main_v26 (by decide)
theorem W2_keep_arg3 (c : Dev nD) : W2 m ρ c (Proc.devRef .tc main_arg3) = W1 m ρ c (Proc.devRef .tc main_arg3) := W2_of_ne m ρ c main_arg3 (by decide)
theorem W2_keep_arg4 (c : Dev nD) : W2 m ρ c (Proc.devRef .tc main_arg4) = W1 m ρ c (Proc.devRef .tc main_arg4) := W2_of_ne m ρ c main_arg4 (by decide)
theorem W2_keep_arg5 (c : Dev nD) : W2 m ρ c (Proc.devRef .tc main_arg5) = W1 m ρ c (Proc.devRef .tc main_arg5) := W2_of_ne m ρ c main_arg5 (by decide)

/-! ## The second stretch: the first aggregation, the first bias as a row -/

set_option maxHeartbeats 8000000 in
/-- Region 1's first operand is the aggregation of region 0's result over the edge data at this boundary. -/
theorem W3_agg (c : Dev nD) : W3 m ρ c (Proc.devRef .tc main_v40)
    = Cert.ReferenceIdeal.Glue.aggregate (W2 m ρ c (Proc.devRef .tc main_v3)) (W2 m ρ c (Proc.devRef .tc main_v6)) (W2 m ρ c (Proc.devRef .tc main_v26)) (W2 m ρ c (Proc.devRef .tc main_v27)) := by
  show StableHlo.after hostOps1 (W2 m ρ c) (Proc.devRef .tc main_v40) = _
  after_results
  all_goals rfl

set_option maxHeartbeats 8000000 in
/-- Region 1's second operand is the first bias vector laid out as one row. -/
theorem W3_row (c : Dev nD) : W3 m ρ c (Proc.devRef .tc main_v41)
    = shapeCast S1x64 (W2 m ρ c (Proc.devRef .tc main_arg3)) Facts₀.shapeCasts_S64_S1x64 := by
  show StableHlo.after hostOps1 (W2 m ρ c) (Proc.devRef .tc main_v41) = _
  after_results
  all_goals rfl

set_option maxHeartbeats 8000000 in
theorem W3_keep_v3 (c : Dev nD) : W3 m ρ c (Proc.devRef .tc main_v3) = W2 m ρ c (Proc.devRef .tc main_v3) := by
  show StableHlo.after hostOps1 (W2 m ρ c) (Proc.devRef .tc main_v3) = _
  after_results
  all_goals rfl

set_option maxHeartbeats 8000000 in
theorem W3_keep_v6 (c : Dev nD) : W3 m ρ c (Proc.devRef .tc main_v6) = W2 m ρ c (Proc.devRef .tc main_v6) := by
  show StableHlo.after hostOps1 (W2 m ρ c) (Proc.devRef .tc main_v6) = _
  after_results
  all_goals rfl

set_option maxHeartbeats 8000000 in
theorem W3_keep_v26 (c : Dev nD) : W3 m ρ c (Proc.devRef .tc main_v26) = W2 m ρ c (Proc.devRef .tc main_v26) := by
  show StableHlo.after hostOps1 (W2 m ρ c) (Proc.devRef .tc main_v26) = _
  after_results
  all_goals rfl

set_option maxHeartbeats 8000000 in
theorem W3_keep_arg4 (c : Dev nD) : W3 m ρ c (Proc.devRef .tc main_arg4) = W2 m ρ c (Proc.devRef .tc main_arg4) := by
  show StableHlo.after hostOps1 (W2 m ρ c) (Proc.devRef .tc main_arg4) = _
  after_results
  all_goals rfl

set_option maxHeartbeats 8000000 in
theorem W3_keep_arg5 (c : Dev nD) : W3 m ρ c (Proc.devRef .tc main_arg5) = W2 m ρ c (Proc.devRef .tc main_arg5) := by
  show StableHlo.after hostOps1 (W2 m ρ c) (Proc.devRef .tc main_arg5) = _
  after_results
  all_goals rfl

/-! ## Regions 1 and 2 write only their result arrays -/

/-- The rectified bias step's result array is what region 1's write-backs leave. -/
theorem W4_act (c : Dev nD) : W4 m ρ c (Proc.devRef .tc main_v42) = (dat1 (V3 m ρ) c).arrAt 2 cfg1.N := W4_arr m ρ c 2

theorem W4_keep_v3 (c : Dev nD) : W4 m ρ c (Proc.devRef .tc main_v3) = W3 m ρ c (Proc.devRef .tc main_v3) := W4_of_ne m ρ c main_v3 (by decide)
theorem W4_keep_v6 (c : Dev nD) : W4 m ρ c (Proc.devRef .tc main_v6) = W3 m ρ c (Proc.devRef .tc main_v6) := W4_of_ne m ρ c main_v6 (by decide)
theorem W4_keep_v26 (c : Dev nD) : W4 m ρ c (Proc.devRef .tc main_v26) = W3 m ρ c (Proc.devRef .tc main_v26) := W4_of_ne m ρ c main_v26 (by decide)
theorem W4_keep_arg4 (c : Dev nD) : W4 m ρ c (Proc.devRef .tc main_arg4) = W3 m ρ c (Proc.devRef .tc main_arg4) := W4_of_ne m ρ c main_arg4 (by decide)
theorem W4_keep_arg5 (c : Dev nD) : W4 m ρ c (Proc.devRef .tc main_arg5) = W3 m ρ c (Proc.devRef .tc main_arg5) := W4_of_ne m ρ c main_arg5 (by decide)

/-- The second projection's result array is what region 2's write-backs leave. -/
theorem W5_proj (c : Dev nD) : W5 m ρ c (Proc.devRef .tc main_v43) = (dat2 (V4 m ρ) c).arrAt 2 cfg2.N := W5_arr m ρ c 2

theorem W5_keep_v3 (c : Dev nD) : W5 m ρ c (Proc.devRef .tc main_v3) = W4 m ρ c (Proc.devRef .tc main_v3) := W5_of_ne m ρ c main_v3 (by decide)
theorem W5_keep_v6 (c : Dev nD) : W5 m ρ c (Proc.devRef .tc main_v6) = W4 m ρ c (Proc.devRef .tc main_v6) := W5_of_ne m ρ c main_v6 (by decide)
theorem W5_keep_v26 (c : Dev nD) : W5 m ρ c (Proc.devRef .tc main_v26) = W4 m ρ c (Proc.devRef .tc main_v26) := W5_of_ne m ρ c main_v26 (by decide)
theorem W5_keep_arg5 (c : Dev nD) : W5 m ρ c (Proc.devRef .tc main_arg5) = W4 m ρ c (Proc.devRef .tc main_arg5) := W5_of_ne m ρ c main_arg5 (by decide)

/-! ## The third stretch: the second aggregation, the second bias as a row -/

set_option maxHeartbeats 8000000 in
/-- Region 3's first operand is the aggregation of region 2's result over the edge data at this boundary. -/
theorem W6_agg (c : Dev nD) : W6 m ρ c (Proc.devRef .tc main_v56)
    = Cert.ReferenceIdeal.Glue.aggregate (W5 m ρ c (Proc.devRef .tc main_v3)) (W5 m ρ c (Proc.devRef .tc main_v6)) (W5 m ρ c (Proc.devRef .tc main_v26)) (W5 m ρ c (Proc.devRef .tc main_v43)) := by
  show StableHlo.after hostOps3 (W5 m ρ c) (Proc.devRef .tc main_v56) = _
  after_results
  all_goals rfl

set_option maxHeartbeats 8000000 in
/-- Region 3's second operand is the second bias vector laid out as one row. -/
theorem W6_row (c : Dev nD) : W6 m ρ c (Proc.devRef .tc main_v57)
    = shapeCast S1x64 (W5 m ρ c (Proc.devRef .tc main_arg5)) Facts₀.shapeCasts_S64_S1x64 := by
  show StableHlo.after hostOps3 (W5 m ρ c) (Proc.devRef .tc main_v57) = _
  after_results
  all_goals rfl

/-- The result array is what region 3's write-backs leave. -/
theorem W7_out (c : Dev nD) : W7 m ρ c (Proc.devRef .tc main_v58) = (dat3 (V6 m ρ) c).arrAt 2 cfg3.N := W7_arr m ρ c 2

/-! ## The edge data and the arguments, carried to where they are read -/

/-- The edge data at the second stretch are those of the first. -/
theorem src_at2 (c : Dev nD) : W2 m ρ c (Proc.devRef .tc main_v3) = Cert.ReferenceIdeal.Glue.srcOf (m ((c : Thread nD τ).loc main_arg1)) :=
  (W2_keep_v3 m ρ c).trans (W1_src m ρ c)
theorem dst_at2 (c : Dev nD) : W2 m ρ c (Proc.devRef .tc main_v6) = Cert.ReferenceIdeal.Glue.dstOf (m ((c : Thread nD τ).loc main_arg1)) :=
  (W2_keep_v6 m ρ c).trans (W1_dst m ρ c)
theorem norm_at2 (c : Dev nD) : W2 m ρ c (Proc.devRef .tc main_v26)
    = Cert.ReferenceIdeal.Glue.edgeNorm (Cert.ReferenceIdeal.Glue.srcOf (m ((c : Thread nD τ).loc main_arg1))) (Cert.ReferenceIdeal.Glue.dstOf (m ((c : Thread nD τ).loc main_arg1))) :=
  (W2_keep_v26 m ρ c).trans (W1_norm m ρ c)

/-- The edge data at the third stretch are those of the first. -/
theorem src_at5 (c : Dev nD) : W5 m ρ c (Proc.devRef .tc main_v3) = Cert.ReferenceIdeal.Glue.srcOf (m ((c : Thread nD τ).loc main_arg1)) :=
  (W5_keep_v3 m ρ c).trans ((W4_keep_v3 m ρ c).trans ((W3_keep_v3 m ρ c).trans (src_at2 m ρ c)))
theorem dst_at5 (c : Dev nD) : W5 m ρ c (Proc.devRef .tc main_v6) = Cert.ReferenceIdeal.Glue.dstOf (m ((c : Thread nD τ).loc main_arg1)) :=
  (W5_keep_v6 m ρ c).trans ((W4_keep_v6 m ρ c).trans ((W3_keep_v6 m ρ c).trans (dst_at2 m ρ c)))
theorem norm_at5 (c : Dev nD) : W5 m ρ c (Proc.devRef .tc main_v26)
    = Cert.ReferenceIdeal.Glue.edgeNorm (Cert.ReferenceIdeal.Glue.srcOf (m ((c : Thread nD τ).loc main_arg1))) (Cert.ReferenceIdeal.Glue.dstOf (m ((c : Thread nD τ).loc main_arg1))) :=
  (W5_keep_v26 m ρ c).trans ((W4_keep_v26 m ρ c).trans ((W3_keep_v26 m ρ c).trans (norm_at2 m ρ c)))

/-- The first bias, where the second stretch reads it, is the launch contents. -/
theorem bias1_at2 (c : Dev nD) : W2 m ρ c (Proc.devRef .tc main_arg3) = m ((c : Thread nD τ).loc main_arg3) :=
  (W2_keep_arg3 m ρ c).trans (W1_arg3 m ρ c)
/-- The second weights, where region 2 reads them, are the launch contents. -/
theorem weights2_at4 (c : Dev nD) : W4 m ρ c (Proc.devRef .tc main_arg4) = m ((c : Thread nD τ).loc main_arg4) :=
  (W4_keep_arg4 m ρ c).trans ((W3_keep_arg4 m ρ c).trans ((W2_keep_arg4 m ρ c).trans (W1_arg4 m ρ c)))
/-- The second bias, where the third stretch reads it, is the launch contents. -/
theorem bias2_at5 (c : Dev nD) : W5 m ρ c (Proc.devRef .tc main_arg5) = m ((c : Thread nD τ).loc main_arg5) :=
  (W5_keep_arg5 m ρ c).trans ((W4_keep_arg5 m ρ c).trans ((W3_keep_arg5 m ρ c).trans ((W2_keep_arg5 m ρ c).trans (W1_arg5 m ρ c))))

end Cert.KernelIdeal.Chain

end
-- ==== Proof.GcnSpec.lean ====
/-
  A two-layer graph convolution, stated once over the extended reals.

  Nodes carry feature rows; a layer is  out = A · (h · W) + b  where the normalised adjacency action
  A is the same gather / scale / scatter-add on both sides of the certificate and is not opened here.
  What differs between the two programs is only how the dense pieces are computed:
    * the projection  h · W  — row by row, entry (r, q) is the sum over k of h(r, k) · W(k, q);
    * the bias step  a + b  — entry (r, q) is a(r, q) + b(q), the bias held as a one-row matrix;
    * the rectified bias step  max(a + b, 0).
  These three entrywise descriptions are the common meeting point: each tiled kernel region is shown
  to leave exactly this array, and each host operation of the reference is shown to compute it.
-/
import Idealize.ShloMosaic.PureOps.Ideal
import Idealize.ShloMosaic.Lib.ValueIdx

noncomputable section

open scoped BigOperators

namespace Cert.Gcn

open Idealize.ShloMosaic Idealize.ShloMosaic.ValueIdx

/-- Node features with 128 channels: 50000 rows. -/
abbrev Nodes128 : Shape := ⟨2, ![50000, 128]⟩
/-- Node features with 64 channels: 50000 rows. -/
abbrev Nodes64 : Shape := ⟨2, ![50000, 64]⟩
/-- The first layer's weights. -/
abbrev W128x64 : Shape := ⟨2, ![128, 64]⟩
/-- The second layer's weights. -/
abbrev W64x64 : Shape := ⟨2, ![64, 64]⟩
/-- A bias held as a matrix of one row. -/
abbrev Row64 : Shape := ⟨2, ![1, 64]⟩
/-- A bias held as a vector. -/
abbrev Vec64 : Shape := ⟨1, ![64]⟩

/-- The first projection: entry (r, q) of x · W is the sum over the 128 input channels. -/
def project128 (x : Nodes128.Idx → EReal) (w : W128x64.Idx → EReal) : Nodes64.Idx → EReal :=
  fun i => ∑ k : Fin 128, x (ix2 (i 0 : Fin 50000) k) * w (ix2 k (i 1 : Fin 64))

/-- The second projection: entry (r, q) of h · W is the sum over the 64 hidden channels. -/
def project64 (h : Nodes64.Idx → EReal) (w : W64x64.Idx → EReal) : Nodes64.Idx → EReal :=
  fun i => ∑ k : Fin 64, h (ix2 (i 0 : Fin 50000) k) * w (ix2 k (i 1 : Fin 64))

/-- Adding a one-row bias to every node row. -/
def addRow (a : Nodes64.Idx → EReal) (b : Row64.Idx → EReal) : Nodes64.Idx → EReal :=
  fun i => a i + b (ix2 (0 : Fin 1) (i 1 : Fin 64))

/-- Adding a one-row bias to every node row, then rectifying. -/
def addRowRelu (a : Nodes64.Idx → EReal) (b : Row64.Idx → EReal) : Nodes64.Idx → EReal :=
  fun i => max (a i + b (ix2 (0 : Fin 1) (i 1 : Fin 64))) 0

/-- A bias vector laid out as a matrix of one row. -/
def asRow (b : Vec64.Idx → EReal) : Row64.Idx → EReal :=
  fun j => b (ix1 (j 1 : Fin 64))

end Cert.Gcn

end
-- ==== Proof.RefTerms.lean ====
/-
  The reference's dense operations, read entry by entry on the extended reals.

  A host dot_general of a [50000, K] array with a [K, 64] array has at (r, q) the sum over k of the
  products of row r with column q: the projection of the specification. Broadcasting a bias vector
  first to one row and then to every node row puts b(q) at (r, q): adding it is the specification's
  bias step on the vector laid out as a row; the maximum with a broadcast zero is then the rectifier.
-/
import proofs.«134717_j68298569941218_1_alg».proof.Proof.Gen.ReferenceIdeal.Read
import proofs.«134717_j68298569941218_1_alg».proof.Proof.GcnSpec

noncomputable section

open scoped BigOperators

namespace Cert.ReferenceIdeal.RefTerms

open Cert.ReferenceIdeal Cert.ReferenceIdeal.Gen Cert.ReferenceIdeal.Read
open Idealize.ShloMosaic Idealize.ShloMosaic.ValueIdx

/-- The first dot_general is the first projection: entry (r, q) sums x(r, k) · W(k, q) over the 128 channels. -/
theorem dot128_eq (x : FVec Ideal S50000x128 .f32) (w : FVec Ideal S128x64 .f32) :
    Host.dotGeneral (F := Ideal) dot_S50000x128_S128x64_S50000x64_1_0_0_1_n_n none x w = Cert.Gcn.project128 x w := by
  funext i
  simp only [Host.dotGeneral]
  rw [Ideal.dotGeneral_apply, ← Equiv.sum_comp (ValueIdx.contrEquiv1 dot_S50000x128_S128x64_S50000x64_1_0_0_1_n_n 128 rfl rfl).symm]
  unfold Cert.Gcn.project128
  refine Finset.sum_congr rfl fun k _ => ?_
  have hk := ValueIdx.contrEquiv1_symm_val dot_S50000x128_S128x64_S50000x64_1_0_0_1_n_n 128 rfl rfl k
  have el : dot_S50000x128_S128x64_S50000x64_1_0_0_1_n_n.lhsIdx i ((ValueIdx.contrEquiv1 dot_S50000x128_S128x64_S50000x64_1_0_0_1_n_n 128 rfl rfl).symm k) = ix2 (i 0 : Fin 50000) k := funext fun a => Fin.ext (by
    match a with
    | ⟨0, _⟩ => exact lhs_main_v27_0 _ _
    | ⟨1, _⟩ => exact (lhs_main_v27_1 _ _).trans hk)
  have er : dot_S50000x128_S128x64_S50000x64_1_0_0_1_n_n.rhsIdx i ((ValueIdx.contrEquiv1 dot_S50000x128_S128x64_S50000x64_1_0_0_1_n_n 128 rfl rfl).symm k) = ix2 k (i 1 : Fin 64) := funext fun a => Fin.ext (by
    match a with
    | ⟨0, _⟩ => exact (rhs_main_v27_0 _ _).trans hk
    | ⟨1, _⟩ => exact rhs_main_v27_1 _ _)
  exact congrArg₂ (fun u v : EReal => u * v) (congrArg x el) (congrArg w er)

/-- The second dot_general is the second projection: entry (r, q) sums h(r, k) · W(k, q) over the 64 channels. -/
theorem dot64_eq (h : FVec Ideal S50000x64 .f32) (w : FVec Ideal S64x64 .f32) :
    Host.dotGeneral (F := Ideal) dot_S50000x64_S64x64_S50000x64_1_0_0_1_n_n none h w = Cert.Gcn.project64 h w := by
  funext i
  simp only [Host.dotGeneral]
  rw [Ideal.dotGeneral_apply, ← Equiv.sum_comp (ValueIdx.contrEquiv1 dot_S50000x64_S64x64_S50000x64_1_0_0_1_n_n 64 rfl rfl).symm]
  unfold Cert.Gcn.project64
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0 : Fin 50000) k := funext fun a => Fin.ext (by
    match a with
    | ⟨0, _⟩ => exact lhs_main_v45_0 _ _
    | ⟨1, _⟩ => exact (lhs_main_v45_1 _ _).trans hk)
  have er : dot_S50000x64_S64x64_S50000x64_1_0_0_1_n_n.rhsIdx i ((ValueIdx.contrEquiv1 dot_S50000x64_S64x64_S50000x64_1_0_0_1_n_n 64 rfl rfl).symm k) = ix2 k (i 1 : Fin 64) := funext fun a => Fin.ext (by
    match a with
    | ⟨0, _⟩ => exact (rhs_main_v45_0 _ _).trans hk
    | ⟨1, _⟩ => exact rhs_main_v45_1 _ _)
  exact congrArg₂ (fun u v : EReal => u * v) (congrArg h el) (congrArg w er)

/-- A bias vector broadcast to one row and then to every node row holds b(q) at (r, q). -/
theorem bcastBias_apply (b : FVec Ideal S64 .f32) (i : S50000x64.Idx) :
    broadcastInDim S50000x64 ![0, 1] bcast_S1x64_S50000x64_0_1 (broadcastInDim S1x64 ![1] bcast_S64_S1x64_1 b) i
      = Cert.Gcn.asRow b (ix2 (0 : Fin 1) (i 1 : Fin 64)) := by
  show val_main_v42 (F := Ideal) b i = _
  rw [val_main_v42_apply, val_main_v41_apply]
  unfold Cert.Gcn.asRow
  exact congrArg b (funext fun a => match a with | ⟨0, _⟩ => rfl)

/-- Adding the twice-broadcast bias is the specification's bias step. -/
theorem addBias_eq (a : FVec Ideal S50000x64 .f32) (b : FVec Ideal S64 .f32) :
    addf (F := Ideal) a (broadcastInDim S50000x64 ![0, 1] bcast_S1x64_S50000x64_0_1 (broadcastInDim S1x64 ![1] bcast_S64_S1x64_1 b))
      = Cert.Gcn.addRow a (Cert.Gcn.asRow b) := by
  funext i
  show FloatOps.addf (a i) (broadcastInDim S50000x64 ![0, 1] bcast_S1x64_S50000x64_0_1 (broadcastInDim S1x64 ![1] bcast_S64_S1x64_1 b) i) = _
  rw [bcastBias_apply, Ideal.addf_def]
  rfl

/-- The maximum with a broadcast zero, after the bias, is the specification's rectified bias step. -/
theorem addBiasRelu_eq (a : FVec Ideal S50000x64 .f32) (b : FVec Ideal S64 .f32) :
    maximumf (F := Ideal) (addf a (broadcastInDim S50000x64 ![0, 1] bcast_S1x64_S50000x64_0_1 (broadcastInDim S1x64 ![1] bcast_S64_S1x64_1 b)))
        (broadcastInDim S50000x64 ![] bcast_S_S50000x64 (constant (F := Ideal) S_ .f32 0x00000000#32))
      = Cert.Gcn.addRowRelu a (Cert.Gcn.asRow b) := by
  funext i
  show FloatOps.maximumf (FloatOps.addf (a i) (broadcastInDim S50000x64 ![0, 1] bcast_S1x64_S50000x64_0_1 (broadcastInDim S1x64 ![1] bcast_S64_S1x64_1 b) i))
      (broadcastInDim S50000x64 ![] bcast_S_S50000x64 (constant (F := Ideal) S_ .f32 0x00000000#32) i) = _
  have hz : broadcastInDim S50000x64 ![] bcast_S_S50000x64 (constant (F := Ideal) S_ .f32 0x00000000#32) i = (0 : EReal) := by
    show val_main_call0_v0 (F := Ideal) i = 0
    rw [val_main_call0_v0_apply, val_main_call0_cst_apply]
    exact Ideal.ofBits_zero_f32
  rw [hz, bcastBias_apply, Ideal.addf_def, Ideal.maximumf_def]
  rfl

end Cert.ReferenceIdeal.RefTerms

end
-- ==== Proof.RefChain.lean ====
/-
  The reference's result as the two-layer graph convolution.

  For any float values the term the reference's run ends at is, read off operation by operation, the
  bias step of an aggregation of a projection of the rectified bias step of an aggregation of a
  projection, the edge data being the same in both aggregations. On the extended reals each dense
  operation is the specification's, which gives the result in the form the kernel's run is brought to.
-/
import proofs.«134717_j68298569941218_1_alg».proof.Proof.Gen.ReferenceIdeal.Run
import proofs.«134717_j68298569941218_1_alg».proof.Proof.Glue
import proofs.«134717_j68298569941218_1_alg».proof.Proof.RefTerms

noncomputable section

namespace Cert.ReferenceIdeal.RefChain

open Cert.ReferenceIdeal Cert.ReferenceIdeal.Gen Cert.ReferenceIdeal.Glue
open Idealize.ShloMosaic Idealize.ShloMosaic.TcCoe Idealize.SL.Sem

variable {F : FTy → Type} [FloatOps F]

/-- The reference, operation by operation over the shared edge data: two layers, a rectifier between. -/
def twoLayers (x : FVec F S50000x128 .f32) (ei : (⟨S2x800000, .i32⟩ : BufTy).Contents (Elt F)) (w1 : FVec F S128x64 .f32)
    (b1 : FVec F S64 .f32) (w2 : FVec F S64x64 .f32) (b2 : FVec F S64 .f32) : FVec F S50000x64 .f32 :=
  addf (aggregate (srcOf ei) (dstOf ei) (edgeNorm (srcOf ei) (dstOf ei))
      (Host.dotGeneral dot_S50000x64_S64x64_S50000x64_1_0_0_1_n_n none
        (maximumf (addf (aggregate (srcOf ei) (dstOf ei) (edgeNorm (srcOf ei) (dstOf ei)) (Host.dotGeneral dot_S50000x128_S128x64_S50000x64_1_0_0_1_n_n none x w1))
            (broadcastInDim S50000x64 ![0, 1] bcast_S1x64_S50000x64_0_1 (broadcastInDim S1x64 ![1] bcast_S64_S1x64_1 b1)))
          (broadcastInDim S50000x64 ![] bcast_S_S50000x64 (constant S_ .f32 0x00000000#32)))
        w2))
    (broadcastInDim S50000x64 ![0, 1] bcast_S1x64_S50000x64_0_1 (broadcastInDim S1x64 ![1] bcast_S64_S1x64_1 b2))

set_option maxRecDepth 16384 in
set_option maxHeartbeats 4000000 in
/-- The run's composed term is that composition of the launch contents of the arguments. -/
theorem res_eq (m : (ℓ : Loc nD τ sig) → Buf (Elt F) ℓ) (c : Dev nD) :
    Cert.ReferenceIdeal.Value.res_main_v61 m c
      = twoLayers (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v61 twoLayers aggregate edgeNorm invSqrtDeg wrapIdx srcOf dstOf
  rfl

/-- The two-layer graph convolution on the extended reals: what both programs end at. -/
def gcnValue (x : FVec Ideal S50000x128 .f32) (ei : (⟨S2x800000, .i32⟩ : BufTy).Contents (Elt Ideal)) (w1 : FVec Ideal S128x64 .f32)
    (b1 : FVec Ideal S64 .f32) (w2 : FVec Ideal S64x64 .f32) (b2 : FVec Ideal S64 .f32) : FVec Ideal S50000x64 .f32 :=
  Cert.Gcn.addRow
    (aggregate (F := Ideal) (srcOf ei) (dstOf ei) (edgeNorm (srcOf ei) (dstOf ei))
      (Cert.Gcn.project64
        (Cert.Gcn.addRowRelu
          (aggregate (F := Ideal) (srcOf ei) (dstOf ei) (edgeNorm (srcOf ei) (dstOf ei)) (Cert.Gcn.project128 x w1))
          (Cert.Gcn.asRow b1))
        w2))
    (Cert.Gcn.asRow b2)

/-- On the extended reals the reference's composition is the graph convolution of the specification. -/
theorem twoLayers_eq (x : FVec Ideal S50000x128 .f32) (ei : (⟨S2x800000, .i32⟩ : BufTy).Contents (Elt Ideal)) (w1 : FVec Ideal S128x64 .f32)
    (b1 : FVec Ideal S64 .f32) (w2 : FVec Ideal S64x64 .f32) (b2 : FVec Ideal S64 .f32) :
    twoLayers (F := Ideal) x ei w1 b1 w2 b2 = gcnValue x ei w1 b1 w2 b2 := by
  unfold twoLayers gcnValue
  rw [Cert.ReferenceIdeal.RefTerms.dot128_eq, Cert.ReferenceIdeal.RefTerms.addBiasRelu_eq, Cert.ReferenceIdeal.RefTerms.dot64_eq,
    Cert.ReferenceIdeal.RefTerms.addBias_eq]

end Cert.ReferenceIdeal.RefChain

end
-- ==== Proof.LinearRegions.lean ====
/-
  The two projection regions. Each runs ten grid points; point t multiplies rows 5000·t … 5000·t + 4999 of
  the node features by the whole weight matrix (into a zero accumulator; the narrowing of the operands to
  bf16 is the identity on the extended reals) and writes the product back as rows 5000·t … of the result.
  The ten row blocks tile the 50000 rows, so the result array ends as the whole product x · W.
-/
import proofs.«134717_j68298569941218_1_alg».proof.Proof.Gen.KernelIdeal.Frame
import proofs.«134717_j68298569941218_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LinearRegions

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The block offsets of every load and store are zero -/

/-- The offset vector (0, 0) is the constant zero function. -/
theorem zero_offsets : (![0, 0] : Fin 2 → Nat) = fun _ => 0 :=
  funext fun a => by match a with | ⟨0, _⟩ => rfl | ⟨1, _⟩ => rfl

/-! ## The first product at an entry: a block of 5000 rows times the 128 × 64 weights -/

/-- The left operand of entry (r, q), term k: its row is r. -/
theorem lhs128_row (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand of entry (r, q), term k: its column is k. -/
theorem lhs128_col (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand of entry (r, q), term k: its row is k. -/
theorem rhs128_row (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand of entry (r, q), term k: its column is q. -/
theorem rhs128_col (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of a 5000 × 128 block times the 128 × 64 weights, accumulated into zero, is the sum over
    the 128 channels k of block(p, k) · weights(k, q). -/
theorem product128_apply (l : FVec Ideal S5000x128 .bf16) (r : FVec Ideal S128x64 .bf16) (p : Fin 5000) (q : Fin 64) :
    matmul (F := Ideal) dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs128_row _ _
    | ⟨1, _⟩ => exact (lhs128_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs128_row _ _).trans hk
    | ⟨1, _⟩ => exact rhs128_col _ _)
  rw [el, er]

/-- What region 0's body computes from its two loaded blocks, at entry (p, q). -/
theorem body128_apply (x0 : Vec Ideal S5000x128 .f32) (x1 : Vec Ideal S128x64 .f32) (p : Fin 5000) (q : Fin 64) :
    k0_pay1 (F := Ideal) x0 x1 (ix2 p q) = ∑ k : Fin 128, x0 (ix2 p k) * x1 (ix2 k q) :=
  product128_apply x0 x1 p q

/-! ## Region 0: from the ten row blocks to the whole product -/

/-- Where region 0's three windows sit at grid point t: the feature block and the result block are row
    block t (column block 0); the weights are always block (0, 0). -/
theorem blocks128 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Entry (p, q) of the product of point t's feature block with the weights is entry (p, q) of point t's
    block of the whole product: row p of the feature block is row 5000·t + p of the features, the same
    row the result block's row p is, and the weights are read whole. -/
theorem block_of_product128 (x : Cert.Gcn.Nodes128.Idx → EReal) (w : Cert.Gcn.W128x64.Idx → EReal)
    (t : Fin cfg0.N) (p : Fin 5000) (q : Fin 64) :
    (∑ k : Fin 128, x (((cfg0.win 0).blk t).view.emb (ix2 p k)) * w (((cfg0.win 1).blk t).view.emb (ix2 k q)))
      = Cert.Gcn.project128 x w (((cfg0.win 2).blk t).view.emb (ix2 p q)) := by
  obtain ⟨e0, e1, e2, e3, e4, e5⟩ := blocks128 t
  show _ = ∑ k : Fin 128, x (ix2 ((((cfg0.win 2).blk t).view.emb (ix2 p q)) 0 : Fin 50000) k)
      * w (ix2 k ((((cfg0.win 2).blk t).view.emb (ix2 p q)) 1 : Fin 64))
  refine Finset.sum_congr rfl fun k _ => ?_
  have hx : ((cfg0.win 0).blk t).view.emb (ix2 p k)
      = ix2 ((((cfg0.win 2).blk t).view.emb (ix2 p q)) 0 : Fin 50000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have hw : ((cfg0.win 1).blk t).view.emb (ix2 k q)
      = ix2 k ((((cfg0.win 2).blk t).view.emb (ix2 p q)) 1 : Fin 64) := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [hx, hw]
  rfl

/-- What point t writes back is rows 5000·t … 5000·t + 4999 of the product of the two arrays found. -/
theorem written128 (c : Dev nD) (t : Fin cfg0.N) :
    (dat0 (F := Ideal) V c).flushed 2 t
      = ((cfg0.win 2).blk t).view.read (Elt Ideal) (Cert.Gcn.project128 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x64) zero_offsets]
  funext j
  obtain ⟨p, q, rfl⟩ : ∃ (p : Fin 5000) (q : Fin 64), j = ix2 p q := ⟨j 0, j 1, eq_ix2 j⟩
  refine (body128_apply (iblk0 V c 0 t) (iblk0 V c 1 t) p q).trans ?_
  exact block_of_product128 (V c main_arg0) (V c main_arg2) t p q

/-- An index of the result array lies in point t's block iff each coordinate lies in the block's range
    on its axis. -/
theorem mem_rows128 (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- The ten row blocks cover the 50000 rows: row r lies in the block of point r / 5000. -/
theorem rows_covered128 (i : S50000x64.Idx) :
    ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  have ht : (i 0).val / 5000 < cfg0.N := by show _ < grid0.N; rw [hN]; omega
  obtain ⟨e0, e1, e2, e3, e4, e5⟩ := blocks128 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_rows128]
  intro a
  match a with
  | ⟨0, _⟩ => show win0_2.index ⟨(i 0).val / 5000, ht⟩ (0 : Fin 2) * 5000 ≤ (i 0).val ∧ (i 0).val < win0_2.index ⟨(i 0).val / 5000, ht⟩ (0 : Fin 2) * 5000 + 5000; omega
  | ⟨1, _⟩ => show win0_2.index ⟨(i 0).val / 5000, ht⟩ (1 : Fin 2) * 64 ≤ (i 1).val ∧ (i 1).val < win0_2.index ⟨(i 0).val / 5000, ht⟩ (1 : Fin 2) * 64 + 64; omega

/-- Region 0 leaves, in its result array, the first projection of the arrays it found. -/
theorem project128_array (c : Dev nD) :
    (dat0 (F := Ideal) V c).arrAt 2 cfg0.N = Cert.Gcn.project128 (V c main_arg0) (V c main_arg2) :=
  (dat0 (F := Ideal) V c).arrAt_eq_of_cover 2 _ (fun t _ => written128 V c t) rows_covered128

/-! ## The second product at an entry: a block of 5000 rows times the 64 × 64 weights -/

/-- The left operand of entry (r, q), term k: its row is r. -/
theorem lhs64_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- The left operand of entry (r, q), term k: its column is k. -/
theorem lhs64_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- The right operand of entry (r, q), term k: its row is k. -/
theorem rhs64_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- The right operand of entry (r, q), term k: its column is q. -/
theorem rhs64_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of a 5000 × 64 block times the 64 × 64 weights, accumulated into zero, is the sum over
    the 64 hidden channels k of block(p, k) · weights(k, q). -/
theorem product64_apply (l : FVec Ideal S5000x64 .bf16) (r : FVec Ideal S64x64 .bf16) (p : Fin 5000) (q : Fin 64) :
    matmul (F := Ideal) dot_S5000x64_S64x64_S5000x64_1_0_0_1_n_n none l r (constant (F := Ideal) S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs64_row _ _
    | ⟨1, _⟩ => exact (lhs64_col _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs64_row _ _).trans hk
    | ⟨1, _⟩ => exact rhs64_col _ _)
  rw [el, er]

/-- What region 2's body computes from its two loaded blocks, at entry (p, q): the reshaping of the
    feature block to its own shape changes nothing. -/
theorem body64_apply (x0 : Vec Ideal S5000x64 .f32) (x1 : Vec Ideal S64x64 .f32) (p : Fin 5000) (q : Fin 64) :
    k2_pay1 (F := Ideal) x0 x1 (ix2 p q) = ∑ k : Fin 64, x0 (ix2 p k) * x1 (ix2 k q) := by
  unfold k2_pay1
  rw [shapeCast_self]
  exact product64_apply x0 x1 p q

/-! ## Region 2: from the ten row blocks to the whole product -/

/-- Where region 2's three windows sit at grid point t: the hidden-feature block and the result block
    are row block t (column block 0); the weights are always block (0, 0). -/
theorem blocks64 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Entry (p, q) of the product of point t's hidden-feature block with the weights is entry (p, q) of
    point t's block of the whole product: row p of the block is row 5000·t + p of the hidden features,
    the same row the result block's row p is, and the weights are read whole. -/
theorem block_of_product64 (h : Cert.Gcn.Nodes64.Idx → EReal) (w : Cert.Gcn.W64x64.Idx → EReal)
    (t : Fin cfg2.N) (p : Fin 5000) (q : Fin 64) :
    (∑ k : Fin 64, h (((cfg2.win 0).blk t).view.emb (ix2 p k)) * w (((cfg2.win 1).blk t).view.emb (ix2 k q)))
      = Cert.Gcn.project64 h w (((cfg2.win 2).blk t).view.emb (ix2 p q)) := by
  obtain ⟨e0, e1, e2, e3, e4, e5⟩ := blocks64 t
  show _ = ∑ k : Fin 64, h (ix2 ((((cfg2.win 2).blk t).view.emb (ix2 p q)) 0 : Fin 50000) k)
      * w (ix2 k ((((cfg2.win 2).blk t).view.emb (ix2 p q)) 1 : Fin 64))
  refine Finset.sum_congr rfl fun k _ => ?_
  have hx : ((cfg2.win 0).blk t).view.emb (ix2 p k)
      = ix2 ((((cfg2.win 2).blk t).view.emb (ix2 p q)) 0 : Fin 50000) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 64 + 1 * k.val = k.val; omega
  have hw : ((cfg2.win 1).blk t).view.emb (ix2 k q)
      = ix2 k ((((cfg2.win 2).blk t).view.emb (ix2 p q)) 1 : Fin 64) := by
    funext a; apply Fin.ext
    match a with
    | ⟨0, _⟩ => show win2_1.index t (0 : Fin 2) * 64 + 1 * k.val = k.val; omega
    | ⟨1, _⟩ => show win2_1.index t (1 : Fin 2) * 64 + 1 * q.val = win2_2.index t (1 : Fin 2) * 64 + 1 * q.val; omega
  rw [hx, hw]
  rfl

/-- What point t writes back is rows 5000·t … 5000·t + 4999 of the product of the two arrays found. -/
theorem written64 (c : Dev nD) (t : Fin cfg2.N) :
    (dat2 (F := Ideal) V c).flushed 2 t
      = ((cfg2.win 2).blk t).view.read (Elt Ideal) (Cert.Gcn.project64 (V c main_v42) (V c main_arg4)) := by
  show (cfg2.win 2).cut (grid2.coords t) ((dat2 (F := Ideal) V c).after 2 t) = _
  rw [after2_2]
  unfold out2_2
  rw [View.canon_unit_zero zero_offsets]
  simp only [View.ld_unit_zero (S := S5000x64) zero_offsets, View.ld_unit_zero (S := S64x64) zero_offsets]
  funext j
  obtain ⟨p, q, rfl⟩ : ∃ (p : Fin 5000) (q : Fin 64), j = ix2 p q := ⟨j 0, j 1, eq_ix2 j⟩
  refine (body64_apply (iblk2 V c 0 t) (iblk2 V c 1 t) p q).trans ?_
  exact block_of_product64 (V c main_v42) (V c main_arg4) t p q

/-- An index of the result array lies in point t's block iff each coordinate lies in the block's range
    on its axis. -/
theorem mem_rows64 (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- The ten row blocks cover the 50000 rows: row r lies in the block of point r / 5000. -/
theorem rows_covered64 (i : S50000x64.Idx) :
    ∃ t : Fin cfg2.N, (cfg2.win 2).flush t = true ∧ i ∈ ((cfg2.win 2).blk t).view.set := by
  have hi0 : (i 0).val < 50000 := (i 0).isLt
  have hi1 : (i 1).val < 64 := (i 1).isLt
  have hN : grid2.N = 10 := N_2
  have ht : (i 0).val / 5000 < cfg2.N := by show _ < grid2.N; rw [hN]; omega
  obtain ⟨e0, e1, e2, e3, e4, e5⟩ := blocks64 ⟨(i 0).val / 5000, ht⟩
  have e4' : win2_2.index ⟨(i 0).val / 5000, ht⟩ (0 : Fin 2) = (i 0).val / 5000 := e4
  refine ⟨⟨(i 0).val / 5000, ht⟩, flush2_2 _, ?_⟩
  rw [mem_rows64]
  intro a
  match a with
  | ⟨0, _⟩ => show win2_2.index ⟨(i 0).val / 5000, ht⟩ (0 : Fin 2) * 5000 ≤ (i 0).val ∧ (i 0).val < win2_2.index ⟨(i 0).val / 5000, ht⟩ (0 : Fin 2) * 5000 + 5000; omega
  | ⟨1, _⟩ => show win2_2.index ⟨(i 0).val / 5000, ht⟩ (1 : Fin 2) * 64 ≤ (i 1).val ∧ (i 1).val < win2_2.index ⟨(i 0).val / 5000, ht⟩ (1 : Fin 2) * 64 + 64; omega

/-- Region 2 leaves, in its result array, the second projection of the arrays it found. -/
theorem project64_array (c : Dev nD) :
    (dat2 (F := Ideal) V c).arrAt 2 cfg2.N = Cert.Gcn.project64 (V c main_v42) (V c main_arg4) :=
  (dat2 (F := Ideal) V c).arrAt_eq_of_cover 2 _ (fun t _ => written64 V c t) rows_covered64

end Cert.KernelIdeal.LinearRegions

end
-- ==== Proof.BiasRegions.lean ====
/-
  The two bias regions. Each runs ten grid points; point t takes rows 5000·t … 5000·t + 4999 of the aggregated
  features, adds the one-row bias to every row (the first of the two regions then takes the maximum with zero)
  and writes the block back at the same rows. The ten row blocks tile the 50000 rows, so the result array ends
  as the whole array with the bias added (and rectified).
-/
import proofs.«134717_j68298569941218_1_alg».proof.Proof.Gen.KernelIdeal.Frame
import proofs.«134717_j68298569941218_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.BiasRegions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## One block's arithmetic, entry by entry -/

/-- A whole-buffer access starts at offset zero on both axes. -/
theorem zeroOffsets : (![0, 0] : Fin 2 → Nat) = fun _ => 0 := funext fun a => by fin_cases a <;> rfl

/-- Entry (p, q) of the rectified block: the feature entry plus entry q of the one bias row, or zero where that sum
    is negative. The casts are to the blocks' own shapes and change nothing; the broadcast row reads row 0. -/
theorem reluBlock_apply (x0 : Vec Ideal S5000x64 .f32) (x1 : Vec Ideal S1x64 .f32) (p : Fin 5000) (q : Fin 64) :
    k1_pay1 (F := Ideal) x0 x1 (ix2 p q) = max (x0 (ix2 p q) + x1 (ix2 (0 : Fin 1) q)) 0 := by
  unfold k1_pay1
  rw [maximumf_apply, addf_apply, broadcast_apply, shapeCast_self, shapeCast_self, broadcastTo_1b_ab_apply]
  show max (x0 (ix2 p q) + x1 (ix2 (0 : Fin 1) q)) (Ideal.ofBits .f32 0x00000000#32) = _
  rw [Ideal.ofBits_zero_f32]

/-- Entry (p, q) of the plain bias block: the feature entry plus entry q of the one bias row. -/
theorem biasBlock_apply (x0 : Vec Ideal S5000x64 .f32) (x1 : Vec Ideal S1x64 .f32) (p : Fin 5000) (q : Fin 64) :
    k3_pay1 (F := Ideal) x0 x1 (ix2 p q) = x0 (ix2 p q) + x1 (ix2 (0 : Fin 1) q) := by
  unfold k3_pay1
  rw [addf_apply, shapeCast_self, shapeCast_self, broadcastTo_1b_ab_apply]

/-- The rectified bias step read at row r, column q, through any spelling of the three indices involved. -/
theorem addRowRelu_at (a : Cert.Gcn.Nodes64.Idx → EReal) (b : Cert.Gcn.Row64.Idx → EReal)
    (i0 i2 : Cert.Gcn.Nodes64.Idx) (i1 : Cert.Gcn.Row64.Idx) (r : Fin 50000) (q : Fin 64)
    (h0 : i0 = ix2 r q) (h1 : i1 = ix2 (0 : Fin 1) q) (h2 : i2 = ix2 r q) :
    max (a i0 + b i1) 0 = Cert.Gcn.addRowRelu a b i2 := by
  subst h0 h1 h2; rfl

/-- The bias step read at row r, column q, through any spelling of the three indices involved. -/
theorem addRow_at (a : Cert.Gcn.Nodes64.Idx → EReal) (b : Cert.Gcn.Row64.Idx → EReal)
    (i0 i2 : Cert.Gcn.Nodes64.Idx) (i1 : Cert.Gcn.Row64.Idx) (r : Fin 50000) (q : Fin 64)
    (h0 : i0 = ix2 r q) (h1 : i1 = ix2 (0 : Fin 1) q) (h2 : i2 = ix2 r q) :
    a i0 + b i1 = Cert.Gcn.addRow a b i2 := by
  subst h0 h1 h2; rfl

variable (V : (c : Dev nD) → (b : Ref sig .tc) → Buf (Elt Ideal) ((c : Thread nD τ).loc b))

/-! ## The rectified bias region -/

/-- Where the three windows sit at grid point t: the feature window and the result window are both at row block t,
    column block 0, and t is at most 9; the bias row is always at block (0, 0). -/
theorem relu_blocks : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ t.val ≤ 9 :=
  (by decide +kernel : ∀ t : Fin grid1.N, _)

/-- What point t writes back is block t of the whole rectified array: entry (p, q) of the block is entry
    (5000·t + p, q) of the features plus entry (0, q) of the bias, rectified. -/
theorem relu_flushed (c : Dev nD) (t : Fin cfg1.N) :
    (dat1 (F := Ideal) V c).flushed 2 t
      = ((cfg1.win 2).blk t).view.read (Elt Ideal) (Cert.Gcn.addRowRelu (V c main_v40) (V c main_v41)) := by
  show (cfg1.win 2).cut (grid1.coords t) ((dat1 V c).after 2 t) = _
  rw [after1_2]
  unfold out1_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨e0, e1, e2, e3, e4, e5, e6⟩ := relu_blocks t
  have hp : p.val < 5000 := p.isLt
  have hq : q.val < 64 := q.isLt
  show k1_pay1 (F := Ideal) (iblk1 V c 0 t) (iblk1 V c 1 t) (ix2 p q)
      = Cert.Gcn.addRowRelu (V c main_v40) (V c main_v41) (((cfg1.win 2).blk t).view.emb (ix2 p q))
  refine (reluBlock_apply _ _ p q).trans ?_
  have h0 : ((cfg1.win 0).blk t).view.emb (ix2 p q) = ix2 (⟨t.val * 5000 + p.val, by omega⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 64 + 1 * q.val = q.val; omega
  have h2 : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  exact addRowRelu_at (V c main_v40) (V c main_v41) (((cfg1.win 0).blk t).view.emb (ix2 p q))
    (((cfg1.win 2).blk t).view.emb (ix2 p q)) (((cfg1.win 1).blk t).view.emb (ix2 (0 : Fin 1) q)) _ q h0 h1 h2

/-- An index of the array lies in point t's block exactly when each coordinate lies in the block's range on its axis. -/
theorem relu_mem_block (t : Fin cfg1.N) (i : S50000x64.Idx) :
    i ∈ ((cfg1.win 2).blk t).view.set ↔ ∀ a : Fin 2, win1_2.index t a * S5000x64.size a ≤ (i a).val
      ∧ (i a).val < win1_2.index t a * S5000x64.size a + S5000x64.size a := by
  show i ∈ ((View.whole main_v42).slice (win1_2.rect t)).set ↔ _
  rw [View.set_slice_whole, Rect.mem_set_unit]
  exact Iff.rfl

/-- The ten row blocks tile the 50000 rows: row r lies in the block of point r / 5000, which writes back. -/
theorem relu_cover (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  obtain ⟨t, ht⟩ : ∃ t : Fin cfg1.N, t.val = (i 0).val / 5000 :=
    ⟨⟨(i 0).val / 5000, by show (i 0).val / 5000 < 10; omega⟩, rfl⟩
  obtain ⟨e0, e1, e2, e3, e4, e5, e6⟩ := relu_blocks t
  refine ⟨t, flush1_2 t, ?_⟩
  rw [relu_mem_block]
  intro a
  match a with
  | ⟨0, _⟩ =>
    show win1_2.index t (0 : Fin 2) * 5000 ≤ (i 0).val ∧ (i 0).val < win1_2.index t (0 : Fin 2) * 5000 + 5000
    omega
  | ⟨1, _⟩ =>
    show win1_2.index t (1 : Fin 2) * 64 ≤ (i 1).val ∧ (i 1).val < win1_2.index t (1 : Fin 2) * 64 + 64
    omega

/-- Region 1 leaves, in its result array, the rectified bias step of the arrays it found. -/
theorem addRowRelu_array (c : Dev nD) :
    (dat1 (F := Ideal) V c).arrAt 2 cfg1.N = Cert.Gcn.addRowRelu (V c main_v40) (V c main_v41) :=
  (dat1 (F := Ideal) V c).arrAt_eq_of_cover 2 (Cert.Gcn.addRowRelu (V c main_v40) (V c main_v41))
    (fun t _ => relu_flushed V c t) relu_cover

/-! ## The plain bias region -/

/-- Where the three windows sit at grid point t: the feature window and the result window are both at row block t,
    column block 0, and t is at most 9; the bias row is always at block (0, 0). -/
theorem bias_blocks : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0
    ∧ t.val ≤ 9 :=
  (by decide +kernel : ∀ t : Fin grid3.N, _)

/-- What point t writes back is block t of the whole array with the bias added: entry (p, q) of the block is entry
    (5000·t + p, q) of the features plus entry (0, q) of the bias. -/
theorem bias_flushed (c : Dev nD) (t : Fin cfg3.N) :
    (dat3 (F := Ideal) V c).flushed 2 t
      = ((cfg3.win 2).blk t).view.read (Elt Ideal) (Cert.Gcn.addRow (V c main_v56) (V c main_v57)) := by
  show (cfg3.win 2).cut (grid3.coords t) ((dat3 V c).after 2 t) = _
  rw [after3_2]
  unfold out3_2
  rw [View.canon_unit_zero zeroOffsets]
  simp only [View.ld_unit_zero (S := S5000x64) zeroOffsets, View.ld_unit_zero (S := S1x64) zeroOffsets]
  funext j
  obtain ⟨p, q, rfl⟩ : ∃ (p : Fin 5000) (q : Fin 64), j = ix2 p q := ⟨j 0, j 1, eq_ix2 j⟩
  obtain ⟨e0, e1, e2, e3, e4, e5, e6⟩ := bias_blocks t
  have hp : p.val < 5000 := p.isLt
  have hq : q.val < 64 := q.isLt
  show k3_pay1 (F := Ideal) (iblk3 V c 0 t) (iblk3 V c 1 t) (ix2 p q)
      = Cert.Gcn.addRow (V c main_v56) (V c main_v57) (((cfg3.win 2).blk t).view.emb (ix2 p q))
  refine (biasBlock_apply _ _ p q).trans ?_
  have h0 : ((cfg3.win 0).blk t).view.emb (ix2 p q) = ix2 (⟨t.val * 5000 + p.val, by omega⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have h2 : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  exact addRow_at (V c main_v56) (V c main_v57) (((cfg3.win 0).blk t).view.emb (ix2 p q))
    (((cfg3.win 2).blk t).view.emb (ix2 p q)) (((cfg3.win 1).blk t).view.emb (ix2 (0 : Fin 1) q)) _ q h0 h1 h2

/-- An index of the array lies in point t's block exactly when each coordinate lies in the block's range on its axis. -/
theorem bias_mem_block (t : Fin cfg3.N) (i : S50000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_v58).slice (win3_2.rect t)).set ↔ _
  rw [View.set_slice_whole, Rect.mem_set_unit]
  exact Iff.rfl

/-- The ten row blocks tile the 50000 rows: row r lies in the block of point r / 5000, which writes back. -/
theorem bias_cover (i : S50000x64.Idx) :
    ∃ t : Fin cfg3.N, (cfg3.win 2).flush t = true ∧ i ∈ ((cfg3.win 2).blk t).view.set := by
  have hi0 : (i 0).val < 50000 := (i 0).isLt
  have hi1 : (i 1).val < 64 := (i 1).isLt
  obtain ⟨t, ht⟩ : ∃ t : Fin cfg3.N, t.val = (i 0).val / 5000 :=
    ⟨⟨(i 0).val / 5000, by show (i 0).val / 5000 < 10; omega⟩, rfl⟩
  obtain ⟨e0, e1, e2, e3, e4, e5, e6⟩ := bias_blocks t
  refine ⟨t, flush3_2 t, ?_⟩
  rw [bias_mem_block]
  intro a
  match a with
  | ⟨0, _⟩ =>
    show win3_2.index t (0 : Fin 2) * 5000 ≤ (i 0).val ∧ (i 0).val < win3_2.index t (0 : Fin 2) * 5000 + 5000
    omega
  | ⟨1, _⟩ =>
    show win3_2.index t (1 : Fin 2) * 64 ≤ (i 1).val ∧ (i 1).val < win3_2.index t (1 : Fin 2) * 64 + 64
    omega

/-- Region 3 leaves, in its result array, the bias step of the arrays it found. -/
theorem addRow_array (c : Dev nD) :
    (dat3 (F := Ideal) V c).arrAt 2 cfg3.N = Cert.Gcn.addRow (V c main_v56) (V c main_v57) :=
  (dat3 (F := Ideal) V c).arrAt_eq_of_cover 2 (Cert.Gcn.addRow (V c main_v56) (V c main_v57))
    (fun t _ => bias_flushed V c t) bias_cover

end Cert.KernelIdeal.BiasRegions

end
-- ==== Proof.KernelValue.lean ====
/-
  The kernel's result array, on the extended reals, is the two-layer graph convolution of its arguments.

  Going up the boundaries: region 0 leaves the first projection of the features and the first weights;
  the second stretch aggregates it and lays the first bias out as a row; region 1 adds that row and
  rectifies; region 2 projects with the second weights; the third stretch aggregates and lays the
  second bias out as a row; region 3 adds it. The edge data are the same at both aggregations.
-/
import proofs.«134717_j68298569941218_1_alg».proof.Proof.KernelChain
import proofs.«134717_j68298569941218_1_alg».proof.Proof.RefChain
import proofs.«134717_j68298569941218_1_alg».proof.Proof.LinearRegions
import proofs.«134717_j68298569941218_1_alg».proof.Proof.BiasRegions
import Idealize.ShloMosaic.Lib.Pipeline.Value
import Idealize.ShloMosaic.Lib.ValueIdx

set_option maxRecDepth 16384

noncomputable section

namespace Cert.KernelIdeal.KernelValue

open Cert.KernelIdeal Cert.KernelIdeal.Gen Cert.KernelIdeal.Chain
open Idealize.ShloMosaic Idealize.ShloMosaic.TcCoe Idealize.ShloMosaic.ValueIdx Idealize.SL.Sem

variable (m : (ℓ : Loc nD τ sig) → Buf (Elt Ideal) ℓ) (ρ : Dev nD → PrngReg)

/-- A 64-vector reshaped to one row holds b(q) at (0, q): positions agree in row-major order. -/
theorem row_eq (b : FVec Ideal S64 .f32) : shapeCast S1x64 b Facts₀.shapeCasts_S64_S1x64 = Cert.Gcn.asRow b := by
  funext j
  unfold Cert.Gcn.asRow
  refine shapeCast_apply b _ j (ix1 (j 1 : Fin 64)) ?_
  rw [Shape.rowMajor_val_one, Shape.rowMajor_val_two]
  show (j 1).val = (j 0).val * 64 + (j 1).val
  have h0 : (j 0).val < 1 := (j 0).isLt
  omega

/-- Region 0's result: the first projection of the launch contents. -/
theorem proj1 (c : Dev nD) : W2 m ρ c (Proc.devRef .tc main_v27)
    = Cert.Gcn.project128 (m ((c : Thread nD τ).loc main_arg0)) (m ((c : Thread nD τ).loc main_arg2)) := by
  rw [W2_proj, Cert.KernelIdeal.LinearRegions.project128_array (V1 m ρ) c]
  show Cert.Gcn.project128 (W1 m ρ c (Proc.devRef .tc main_arg0)) (W1 m ρ c (Proc.devRef .tc main_arg2)) = _
  rw [W1_arg0, W1_arg2]

/-- Region 1's result: the first layer, rectified. -/
theorem layer1 (c : Dev nD) : W4 m ρ c (Proc.devRef .tc main_v42)
    = Cert.Gcn.addRowRelu
        (Cert.ReferenceIdeal.Glue.aggregate (F := Ideal) (Cert.ReferenceIdeal.Glue.srcOf (F := Ideal) (m ((c : Thread nD τ).loc main_arg1))) (Cert.ReferenceIdeal.Glue.dstOf (F := Ideal) (m ((c : Thread nD τ).loc main_arg1))) (Cert.ReferenceIdeal.Glue.edgeNorm (F := Ideal) (Cert.ReferenceIdeal.Glue.srcOf (F := Ideal) (m ((c : Thread nD τ).loc main_arg1))) (Cert.ReferenceIdeal.Glue.dstOf (F := Ideal) (m ((c : Thread nD τ).loc main_arg1))))
          (Cert.Gcn.project128 (m ((c : Thread nD τ).loc main_arg0)) (m ((c : Thread nD τ).loc main_arg2))))
        (Cert.Gcn.asRow (m ((c : Thread nD τ).loc main_arg3))) := by
  rw [W4_act, Cert.KernelIdeal.BiasRegions.addRowRelu_array (V3 m ρ) c]
  show Cert.Gcn.addRowRelu (W3 m ρ c (Proc.devRef .tc main_v40)) (W3 m ρ c (Proc.devRef .tc main_v41)) = _
  rw [W3_agg, W3_row, src_at2, dst_at2, norm_at2, bias1_at2, proj1, row_eq]

/-- Region 2's result: the second projection of the first layer. -/
theorem proj2 (c : Dev nD) : W5 m ρ c (Proc.devRef .tc main_v43)
    = Cert.Gcn.project64
        (Cert.Gcn.addRowRelu
          (Cert.ReferenceIdeal.Glue.aggregate (F := Ideal) (Cert.ReferenceIdeal.Glue.srcOf (F := Ideal) (m ((c : Thread nD τ).loc main_arg1))) (Cert.ReferenceIdeal.Glue.dstOf (F := Ideal) (m ((c : Thread nD τ).loc main_arg1))) (Cert.ReferenceIdeal.Glue.edgeNorm (F := Ideal) (Cert.ReferenceIdeal.Glue.srcOf (F := Ideal) (m ((c : Thread nD τ).loc main_arg1))) (Cert.ReferenceIdeal.Glue.dstOf (F := Ideal) (m ((c : Thread nD τ).loc main_arg1))))
            (Cert.Gcn.project128 (m ((c : Thread nD τ).loc main_arg0)) (m ((c : Thread nD τ).loc main_arg2))))
          (Cert.Gcn.asRow (m ((c : Thread nD τ).loc main_arg3))))
        (m ((c : Thread nD τ).loc main_arg4)) := by
  rw [W5_proj, Cert.KernelIdeal.LinearRegions.project64_array (V4 m ρ) c]
  show Cert.Gcn.project64 (W4 m ρ c (Proc.devRef .tc main_v42)) (W4 m ρ c (Proc.devRef .tc main_arg4)) = _
  rw [layer1, weights2_at4]

/-- The result array after the run: the graph convolution of the launch contents of the arguments. -/
theorem kernel_value (c : Dev nD) : W7 m ρ c (Proc.devRef .tc main_v58)
    = Cert.ReferenceIdeal.RefChain.gcnValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  unfold Cert.ReferenceIdeal.RefChain.gcnValue
  rw [W7_out, Cert.KernelIdeal.BiasRegions.addRow_array (V6 m ρ) c]
  show Cert.Gcn.addRow (W6 m ρ c (Proc.devRef .tc main_v56)) (W6 m ρ c (Proc.devRef .tc main_v57)) = _
  rw [W6_agg, W6_row, src_at5, dst_at5, norm_at5, bias2_at5, proj2, row_eq]

end Cert.KernelIdeal.KernelValue

end
-- ==== Proof.lean ====
/-
  A two-layer graph convolution: the tiled kernel against its plain reference, over the extended reals.

  Both programs build the same edge data on the host (self-loops appended, symmetric normalisation by
  inverse square roots of the in-degrees) and aggregate with the same gather, scale and scatter-add.
  They differ only in the dense steps. The kernel computes each projection h · W in ten row blocks of
  5000 nodes, each block a matrix product into a zero accumulator whose operands are first narrowed
  to bf16 (no change on the extended reals), and each bias step (with the rectifier after the first
  layer) in ten row blocks as well; the reference computes whole-array dot products, broadcasts the
  bias and takes the maximum with zero. Entry by entry these are the same sums and the same
  maxima, so the two results are one array. No input needs to be finite for this: the two sides are
  the same expression, not two expressions joined by a law that could fail at infinity.

  The frames of the two kernel programs are the generated ones; the reference's frame is its generated
  run with the result dropped; the idealisation rewrote nothing, so the preservation claim is trivial.
-/
import proofs.«134717_j68298569941218_1_alg».proof.Defs
import proofs.«134717_j68298569941218_1_alg».proof.Proof.Gen.Kernel
import proofs.«134717_j68298569941218_1_alg».proof.Proof.Gen.Kernel.Skeleton
import proofs.«134717_j68298569941218_1_alg».proof.Proof.Gen.Kernel.Launch
import proofs.«134717_j68298569941218_1_alg».proof.Proof.Gen.Kernel.Points
import proofs.«134717_j68298569941218_1_alg».proof.Proof.Gen.Kernel.Frame
import proofs.«134717_j68298569941218_1_alg».proof.Proof.Gen.KernelIdeal
import proofs.«134717_j68298569941218_1_alg».proof.Proof.Gen.KernelIdeal.Skeleton
import proofs.«134717_j68298569941218_1_alg».proof.Proof.Gen.KernelIdeal.Launch
import proofs.«134717_j68298569941218_1_alg».proof.Proof.Gen.KernelIdeal.Points
import proofs.«134717_j68298569941218_1_alg».proof.Proof.Gen.KernelIdeal.Frame
import proofs.«134717_j68298569941218_1_alg».proof.Proof.Gen.ReferenceIdeal
import proofs.«134717_j68298569941218_1_alg».proof.Proof.Gen.ReferenceIdeal.Run
import proofs.«134717_j68298569941218_1_alg».proof.Proof.Gen.ReferenceIdeal.Read
import proofs.«134717_j68298569941218_1_alg».proof.Proof.Gen.Pre_finite_inputs
import proofs.«134717_j68298569941218_1_alg».proof.Proof.KernelRun
import proofs.«134717_j68298569941218_1_alg».proof.Proof.KernelValue
import proofs.«134717_j68298569941218_1_alg».proof.Proof.RefChain
import Idealize.ShloMosaic.Adequacy
import Idealize.ShloMosaic.Init

noncomputable section

namespace Cert.Proof

open Idealize.ShloMosaic Idealize.SL.Sem

/-- The word-level kernel runs and leaves its arguments: the generated frame. -/
theorem frame_kernel : Cert.frame_Kernel := fun m ρ _ => Cert.Kernel.Gen.frame m ρ

/-- The idealized kernel runs and leaves its arguments: the generated frame. -/
theorem frame_kernelIdeal : Cert.frame_KernelIdeal := fun m ρ _ => Cert.KernelIdeal.Gen.frame m ρ

/-- The reference runs and leaves its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the graph convolution of those
    arguments in their result arrays: the kernel by its run read boundary by boundary, the reference
    by its run read operation by operation. -/
theorem algebraic : Cert.algebraic_KernelIdeal_ReferenceIdeal := by
  intro m ρ m' ρ' _ hagree
  refine ⟨fun c => Cert.ReferenceIdeal.RefChain.gcnValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.kernel_value m ρ c), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefChain.res_eq, Cert.ReferenceIdeal.RefChain.twoLayers_eq,
      (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
